-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000 : Shape := ⟨1, ![500000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg1 : IVec S500000 32) (main_arg2 : IVec S500000 32) (main_v33 : IVec S_ 1) : IVec S_ 1 :=
  let main_c_12 : IVec S_ 32 := constantI S_ 32 0#32
  let main_v34 : IVec S500000 32 := broadcastInDim S500000 ![] bcast_S_S500000 main_c_12
  let main_v35 : IVec S500000 1 := cmpi .sge main_arg1 main_v34
  let main_c_13 : IVec S_ 32 := constantI S_ 32 50000#32
  let main_v36 : IVec S500000 32 := broadcastInDim S500000 ![] bcast_S_S500000 main_c_13
  let main_v37 : IVec S500000 1 := cmpi .slt main_arg1 main_v36
  let main_v38 : IVec S500000 1 := andi main_v35 main_v37
  let main_c_14 : IVec S_ 1 := constantI S_ 1 1#1
  let main_v39 : IVec S_ 1 := (fun x v => Host.reduce IntOp.andi x v reducesTo_S500000_S_d0 h_S_) main_v38 main_c_14
  let main_v40 : IVec S_ 1 := andi main_v33 main_v39
  let main_c_15 : IVec S_ 32 := constantI S_ 32 0#32
  let main_v41 : IVec S500000 32 := broadcastInDim S500000 ![] bcast_S_S500000 main_c_15
  let main_v42 : IVec S500000 1 := cmpi .sge main_arg2 main_v41
  let main_c_16 : IVec S_ 32 := constantI S_ 32 50000#32
  let main_v43 : IVec S500000 32 := broadcastInDim S500000 ![] bcast_S_S500000 main_c_16
  let main_v44 : IVec S500000 1 := cmpi .slt main_arg2 main_v43
  let main_v45 : IVec S500000 1 := andi main_v42 main_v44
  let main_c_17 : IVec S_ 1 := constantI S_ 1 1#1
  let main_v46 : IVec S_ 1 := (fun x v => Host.reduce IntOp.andi x v reducesTo_S500000_S_d0 h_S_) main_v45 main_c_17
  let main_v47 : IVec S_ 1 := andi main_v40 main_v46
  main_v47

def fn_part1 {F : FTy → Type} [FloatOps F] (main_arg1 : IVec S500000 32) (main_arg2 : IVec S500000 32) (main_arg6 : FVec F S128 .f32) (main_arg7 : FVec F S128x2 .f32) (main_arg8 : FVec F S2 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg1 main_arg2 main_v33

def fn {F : FTy → Type} [FloatOps F] (main_arg0 : FVec F S50000x128 .f32) (main_arg1 : IVec S500000 32) (main_arg2 : IVec S500000 32) (main_arg3 : FVec F S512x256 .f32) (main_arg4 : FVec F S256 .f32) (main_arg5 : FVec F S256x128 .f32) (main_arg6 : FVec F S128 .f32) (main_arg7 : FVec F S128x2 .f32) (main_arg8 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg2 main_arg6 main_arg7 main_arg8 main_v13 main_v16
-- ==== Kernel.lean ====
abbrev S50000x128 : Shape := ⟨2, ![50000, 128]⟩
abbrev S500000 : Shape := ⟨1, ![500000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩
abbrev S503808 : Shape := ⟨1, ![503808]⟩
abbrev S503808x1 : Shape := ⟨2, ![503808, 1]⟩
abbrev S503808x128 : Shape := ⟨2, ![503808, 128]⟩
abbrev S503808x2 : Shape := ⟨2, ![503808, 2]⟩
abbrev S4096x128 : Shape := ⟨2, ![4096, 128]⟩
abbrev S4096x2 : Shape := ⟨2, ![4096, 2]⟩
abbrev S4096x512 : Shape := ⟨2, ![4096, 512]⟩
abbrev S4096x256 : Shape := ⟨2, ![4096, 256]⟩
abbrev S1x256 : Shape := ⟨2, ![1, 256]⟩
abbrev S1x128 : Shape := ⟨2, ![1, 128]⟩
abbrev S1x2 : Shape := ⟨2, ![1, 2]⟩
abbrev S500000x2 : Shape := ⟨2, ![500000, 2]⟩

abbrev nBuf : Space → Nat
  | .hbm => 52
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S500000, .i32⟩
  | .hbm, ⟨2, _⟩ => ⟨S500000, .i32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S_, .i32⟩
  | .hbm, ⟨23, _⟩ => ⟨S500000, .i32⟩
  | .hbm, ⟨24, _⟩ => ⟨S500000, .i32⟩
  | .hbm, ⟨25, _⟩ => ⟨S_, .i32⟩
  | .hbm, ⟨26, _⟩ => ⟨S_, .i32⟩
  | .hbm, ⟨27, _⟩ => ⟨S503808, .i32⟩
  | .hbm, ⟨28, _⟩ => ⟨S_, .i32⟩
  | .hbm, ⟨29, _⟩ => ⟨S_, .i32⟩
  | .hbm, ⟨30, _⟩ => ⟨S503808, .i32⟩
  | .hbm, ⟨31, _⟩ => ⟨S50000x128, .bf16⟩
  | .hbm, ⟨32, _⟩ => ⟨S_, .i32⟩
  | .hbm, ⟨33, _⟩ => ⟨S503808, .i32⟩
  | .hbm, ⟨34, _⟩ => ⟨S503808, .i1⟩
  | .hbm, ⟨35, _⟩ => ⟨S_, .i32⟩
  | .hbm, ⟨36, _⟩ => ⟨S503808, .i32⟩
  | .hbm, ⟨37, _⟩ => ⟨S503808, .i32⟩
  | .hbm, ⟨38, _⟩ => ⟨S503808, .i32⟩
  | .hbm, ⟨39, _⟩ => ⟨S503808x1, .i32⟩
  | .hbm, ⟨40, _⟩ => ⟨S503808x128, .bf16⟩
  | .hbm, ⟨41, _⟩ => ⟨S_, .i32⟩
  | .hbm, ⟨42, _⟩ => ⟨S503808, .i32⟩
  | .hbm, ⟨43, _⟩ => ⟨S503808, .i1⟩
  | .hbm, ⟨44, _⟩ => ⟨S_, .i32⟩
  | .hbm, ⟨45, _⟩ => ⟨S503808, .i32⟩
  | .hbm, ⟨46, _⟩ => ⟨S503808, .i32⟩
  | .hbm, ⟨47, _⟩ => ⟨S503808, .i32⟩
  | .hbm, ⟨48, _⟩ => ⟨S503808x1, .i32⟩
  | .hbm, ⟨49, _⟩ => ⟨S503808x128, .bf16⟩
  | .hbm, ⟨50, _⟩ => ⟨S503808x2, .f32⟩
  | .hbm, ⟨51, _⟩ => ⟨S500000x2, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S512x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S128x2, .f32⟩
  | .local _ .vmem, ⟨9, _⟩ => ⟨S2, .f32⟩
  | .local _ .vmem, ⟨10, _⟩ => ⟨S4096x2, .f32⟩
  | .local _ .vmem, ⟨11, _⟩ => ⟨S4096x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v1 : Ref sig .tc := ⟨.hbm, 24, rfl⟩
abbrev main_c_3 : Ref sig .tc := ⟨.hbm, 25, rfl⟩
abbrev main_call2_v0 : Ref sig .tc := ⟨.hbm, 26, rfl⟩
abbrev main_v2 : Ref sig .tc := ⟨.hbm, 27, rfl⟩
abbrev main_c_4 : Ref sig .tc := ⟨.hbm, 28, rfl⟩
abbrev main_call3_v0 : Ref sig .tc := ⟨.hbm, 29, rfl⟩
abbrev main_v3 : Ref sig .tc := ⟨.hbm, 30, rfl⟩
abbrev main_v4 : Ref sig .tc := ⟨.hbm, 31, rfl⟩
abbrev main_c_5 : Ref sig .tc := ⟨.hbm, 32, rfl⟩
abbrev main_v5 : Ref sig .tc := ⟨.hbm, 33, rfl⟩
abbrev main_v6 : Ref sig .tc := ⟨.hbm, 34, rfl⟩
abbrev main_c_6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_c_7 : Ref sig .tc := ⟨.hbm, 41, rfl⟩
abbrev main_v12 : Ref sig .tc := ⟨.hbm, 42, rfl⟩
abbrev main_v13 : Ref sig .tc := ⟨.hbm, 43, rfl⟩
abbrev main_c_8 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4096x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S500000 : S_.BroadcastsInDim S500000 (![] : Fin 0 → Fin S500000.rank)
  pads_S500000_S503808_038080 : S500000.Pads (![0] : Fin 1 → Nat) ![3808] ![0] S503808
  h_S_ : 0 < S_.numel
  bitsLt_bf16_f32 : FTy.bits .bf16 < FTy.bits .f32
  bcast_S_S503808 : S_.BroadcastsInDim S503808 (![] : Fin 0 → Fin S503808.rank)
  bcast_S503808_S503808x1_0 : S503808.BroadcastsInDim S503808x1 (![0] : Fin 1 → Fin S503808x1.rank)
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  concatenates_S4096x128_S4096x128_S4096x128_S4096x128_S4096x512_d1 : Shape.Concatenates [S4096x128, S4096x128, S4096x128, S4096x128] S4096x512 1
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S4096x2 : S1x2.Broadcasts S4096x2
  inb_S4096x2_S4096x2_0_0 : ∀ a, (![0, 0] : Fin 2 → Nat) a + S4096x2.size a ≤ S4096x2.size a
  h_S4096x2 : 0 < S4096x2.numel
  slices_S503808x2_S500000x2_0_0 : S503808x2.Slices ![0, 0] S500000x2
  gather_S50000x128_S503808x1_S503808x128_1_0_n_n_0_1_1128_wf : GatherDims.WF S50000x128 S503808x1 S503808x128 [1] [0] [] [0] [] 1 ![1, 128]
  dot_S4096x512_S512x256_S4096x256_1_0_0_1_n_n_wf : DotDims.WF S4096x512 S512x256 S4096x256 [1] [0] [0] [1] [] []
  dot_S4096x256_S256x128_S4096x128_1_0_0_1_n_n_wf : DotDims.WF S4096x256 S256x128 S4096x128 [1] [0] [0] [1] [] []
  dot_S4096x128_S128x2_S4096x2_1_0_0_1_n_n_wf : DotDims.WF S4096x128 S128x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S503808x128.size a
  hwx0_0 : ∀ i : grid0.Coords, EltTy.bits .bf16 = 32 ∨ (Rect.block (s := S503808x128) S4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S503808x128.size a
  hwx0_1 : ∀ i : grid0.Coords, EltTy.bits .bf16 = 32 ∨ (Rect.block (s := S503808x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x2.size a ≤ S128x2.size a
  hwx0_6 : ∀ i : grid0.Coords, EltTy.bits .f32 = 32 ∨ (Rect.block (s := S128x2) S128x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2.size a ≤ S2.size a
  hwx0_7 : ∀ i : grid0.Coords, EltTy.bits .f32 = 32 ∨ (Rect.block (s := S2) S2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x2.size a ≤ S503808x2.size a
  hwx0_8 : ∀ i : grid0.Coords, EltTy.bits .f32 = 32 ∨ (Rect.block (s := S503808x2) S4096x2.size (cc0_transform_8 i) (hinb0_8 i)).WholeWords (EltTy.packing .f32)

variable [Facts₀]

def gather_S50000x128_S503808x1_S503808x128_1_0_n_n_0_1_1128 : GatherDims S50000x128 S503808x1 S503808x128 where
  offsetDims := [1]
  collapsedSliceDims := [0]
  operandBatchingDims := []
  startIndicesBatchingDims := []
  startIndexMap := [0]
  indexVectorDim := 1
  sliceSizes := ![1, 128]
  wf := gather_S50000x128_S503808x1_S503808x128_1_0_n_n_0_1_1128_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x2_S4096x2_1_0_0_1_n_n : DotDims S4096x128 S128x2 S4096x2 where
  lhsContracting := [1]
  rhsContracting := [0]
  lhsNonContracting := [0]
  rhsNonContracting := [1]
  lhsBatch := []
  rhsBatch := []
  wf := dot_S4096x128_S128x2_S4096x2_1_0_0_1_n_n_wf

abbrev win0_0 : Pipeline.Window sig grid0 :=
  Pipeline.Window.ofSpec (Memref.whole main_v11) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19) S4096x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S500000 : Shape := ⟨1, ![500000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩
abbrev S500000x1 : Shape := ⟨2, ![500000, 1]⟩
abbrev S500000x128 : Shape := ⟨2, ![500000, 128]⟩
abbrev S500000x512 : Shape := ⟨2, ![500000, 512]⟩
abbrev S500000x256 : Shape := ⟨2, ![500000, 256]⟩
abbrev S1x256 : Shape := ⟨2, ![1, 256]⟩
abbrev S1x128 : Shape := ⟨2, ![1, 128]⟩
abbrev S500000x2 : Shape := ⟨2, ![500000, 2]⟩
abbrev S1x2 : Shape := ⟨2, ![1, 2]⟩

abbrev nBuf : Space → Nat
  | .hbm => 49
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S500000, .i32⟩
  | .hbm, ⟨2, _⟩ => ⟨S500000, .i32⟩
  | .hbm, ⟨3, _⟩ => ⟨S512x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x128, .f32⟩
  | .hbm, ⟨27, _⟩ => ⟨S500000x128, .f32⟩
  | .hbm, ⟨28, _⟩ => ⟨S500000x128, .f32⟩
  | .hbm, ⟨29, _⟩ => ⟨S500000x128, .f32⟩
  | .hbm, ⟨30, _⟩ => ⟨S500000x512, .f32⟩
  | .hbm, ⟨31, _⟩ => ⟨S500000x256, .f32⟩
  | .hbm, ⟨32, _⟩ => ⟨S1x256, .f32⟩
  | .hbm, ⟨33, _⟩ => ⟨S500000x256, .f32⟩
  | .hbm, ⟨34, _⟩ => ⟨S500000x256, .f32⟩
  | .hbm, ⟨35, _⟩ => ⟨S_, .f32⟩
  | .hbm, ⟨36, _⟩ => ⟨S500000x256, .f32⟩
  | .hbm, ⟨37, _⟩ => ⟨S500000x256, .f32⟩
  | .hbm, ⟨38, _⟩ => ⟨S500000x128, .f32⟩
  | .hbm, ⟨39, _⟩ => ⟨S1x128, .f32⟩
  | .hbm, ⟨40, _⟩ => ⟨S500000x128, .f32⟩
  | .hbm, ⟨41, _⟩ => ⟨S500000x128, .f32⟩
  | .hbm, ⟨42, _⟩ => ⟨S_, .f32⟩
  | .hbm, ⟨43, _⟩ => ⟨S500000x128, .f32⟩
  | .hbm, ⟨44, _⟩ => ⟨S500000x128, .f32⟩
  | .hbm, ⟨45, _⟩ => ⟨S500000x2, .f32⟩
  | .hbm, ⟨46, _⟩ => ⟨S1x2, .f32⟩
  | .hbm, ⟨47, _⟩ => ⟨S500000x2, .f32⟩
  | .hbm, ⟨48, _⟩ => ⟨S500000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_cst : Ref sig .tc := ⟨.hbm, 35, rfl⟩
abbrev main_call0_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call1_cst : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x128_S500000x512_d1 : Shape.Concatenates [S500000x128, S500000x128, S500000x128, S500000x128] S500000x512 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  gather_S50000x128_S500000x1_S500000x128_1_0_n_n_0_1_1128_wf : GatherDims.WF S50000x128 S500000x1 S500000x128 [1] [0] [] [0] [] 1 ![1, 128]
  dot_S500000x512_S512x256_S500000x256_1_0_0_1_n_n_wf : DotDims.WF S500000x512 S512x256 S500000x256 [1] [0] [0] [1] [] []
  dot_S500000x256_S256x128_S500000x128_1_0_0_1_n_n_wf : DotDims.WF S500000x256 S256x128 S500000x128 [1] [0] [0] [1] [] []
  dot_S500000x128_S128x2_S500000x2_1_0_0_1_n_n_wf : DotDims.WF S500000x128 S128x2 S500000x2 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x512_S512x256_S500000x256_1_0_0_1_n_n : DotDims S500000x512 S512x256 S500000x256 where
  lhsContracting := [1]
  rhsContracting := [0]
  lhsNonContracting := [0]
  rhsNonContracting := [1]
  lhsBatch := []
  rhsBatch := []
  wf := dot_S500000x512_S512x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x2_S500000x2_1_0_0_1_n_n : DotDims S500000x128 S128x2 S500000x2 where
  lhsContracting := [1]
  rhsContracting := [0]
  lhsNonContracting := [0]
  rhsNonContracting := [1]
  lhsBatch := []
  rhsBatch := []
  wf := dot_S500000x128_S128x2_S500000x2_1_0_0_1_n_n_wf

class Facts : Prop extends Facts₀ where

variable [Facts]
-- ==== Proof.IndexRange.lean ====
/-
  The two index arrays of an admitted input lie in [0, 50000).

  The precondition is a conjunction of one-bit words, the last two of which are `all ((src ≥ 0) ∧ (src < 50000))`
  and the same for `dst`: each an and-reduction, from 1, of the elementwise conjunction of two signed
  comparisons with constants. A conjunction of bits that is 1 has both bits 1; an and-reduction that is 1
  met only 1s; and a signed comparison word that is 1 is the inequality of the words read as integers.
-/
import proofs.«427881_j87471303950751_3_alg».proof.Proof.Gen.Pre_finite_inputs
import Idealize.ShloMosaic.Lib.ReduceAll
import Idealize.ShloMosaic.Lib.ValueIdx

namespace Cert.IndexRange

open Idealize.ShloMosaic Idealize.ShloMosaic.ValueIdx Cert.Pre_finite_inputs

/-- The scalar shape has one index. -/
instance subsingleton_scalarIdx : Subsingleton S_.Idx := ⟨fun _ _ => funext fun d => d.elim0⟩

/-- One array: if the and-reduction of `(x ≥ 0) ∧ (x < 50000)` over all 500000 places is 1, every place of `x`,
    read signed, lies in [0, 50000). -/
theorem range_of_all (x : IVec S500000 32) (init : IVec S_ 1)
    (h : Host.reduce IntOp.andi
          (andi (cmpi .sge x (broadcastInDim S500000 ![] Facts.bcast_S_S500000 (constantI S_ 32 0#32)))
                (cmpi .slt x (broadcastInDim S500000 ![] Facts.bcast_S_S500000 (constantI S_ 32 50000#32))))
          init Facts.reducesTo_S500000_S_d0 Facts.h_S_ ix0 = 1#1)
    (e : Fin 500000) : 0 ≤ (x (ix1 e)).toInt ∧ (x (ix1 e)).toInt < 50000 := by
  have he := Host.reduce_andi_all _ init Facts.reducesTo_S500000_S_d0 Facts.h_S_ ix0 h (ix1 e)
  -- at one place the word is the conjunction of the two comparison words of `x` there with the constants
  have he' : IntOp.andi (IntOp.cmpi .sge (x (ix1 e)) 0#32) (IntOp.cmpi .slt (x (ix1 e)) 50000#32) = 1#1 := he
  rw [IntOp.andi_eq_one, IntOp.cmpi_sge, IntOp.cmpi_slt] at he'
  have h0 : (0#32 : BitVec 32).toInt = 0 := by decide
  have h1 : (50000#32 : BitVec 32).toInt = 50000 := by decide
  rw [h0] at he'; rw [h1] at he'
  exact he'

/-- The last part of the precondition: its result is the conjunction of the bit it is handed with the two
    range tests, so if it is 1 both range tests are. -/
theorem of_part2 {F : FTy → Type} [FloatOps F] (x1 x2 : IVec S500000 32) (v : IVec S_ 1)
    (h : fn_part2 (F := F) x1 x2 v ix0 = 1#1) :
    (∀ e : Fin 500000, 0 ≤ (x1 (ix1 e)).toInt ∧ (x1 (ix1 e)).toInt < 50000) ∧
    (∀ e : Fin 500000, 0 ≤ (x2 (ix1 e)).toInt ∧ (x2 (ix1 e)).toInt < 50000) := by
  have h' : IntOp.andi (IntOp.andi (v ix0)
      (Host.reduce IntOp.andi
          (andi (cmpi .sge x1 (broadcastInDim S500000 ![] Facts.bcast_S_S500000 (constantI S_ 32 0#32)))
                (cmpi .slt x1 (broadcastInDim S500000 ![] Facts.bcast_S_S500000 (constantI S_ 32 50000#32))))
          (constantI S_ 1 1#1) Facts.reducesTo_S500000_S_d0 Facts.h_S_ ix0))
      (Host.reduce IntOp.andi
          (andi (cmpi .sge x2 (broadcastInDim S500000 ![] Facts.bcast_S_S500000 (constantI S_ 32 0#32)))
                (cmpi .slt x2 (broadcastInDim S500000 ![] Facts.bcast_S_S500000 (constantI S_ 32 50000#32))))
          (constantI S_ 1 1#1) Facts.reducesTo_S500000_S_d0 Facts.h_S_ ix0) = 1#1 := h
  rw [IntOp.andi_eq_one, IntOp.andi_eq_one] at h'
  exact ⟨range_of_all x1 _ h'.1.2, range_of_all x2 _ h'.2⟩

/-- Both index arrays of an input the precondition admits lie in [0, 50000). -/
theorem of_pre {F : FTy → Type} [FloatOps F] (x0 : FVec F S50000x128 .f32) (x1 x2 : IVec S500000 32)
    (x3 : FVec F S512x256 .f32) (x4 : FVec F S256 .f32) (x5 : FVec F S256x128 .f32) (x6 : FVec F S128 .f32)
    (x7 : FVec F S128x2 .f32) (x8 : FVec F S2 .f32)
    (h : Cert.Pre_finite_inputs.fn (F := F) x0 x1 x2 x3 x4 x5 x6 x7 x8 = fun _ => 1#1) :
    (∀ e : Fin 500000, 0 ≤ (x1 (ix1 e)).toInt ∧ (x1 (ix1 e)).toInt < 50000) ∧
    (∀ e : Fin 500000, 0 ≤ (x2 (ix1 e)).toInt ∧ (x2 (ix1 e)).toInt < 50000) := by
  have h0 : Cert.Pre_finite_inputs.fn (F := F) x0 x1 x2 x3 x4 x5 x6 x7 x8 ix0 = 1#1 := congrFun h ix0
  -- the precondition ends in its last part, applied to the two index arrays and the bit of everything before
  have h1 : fn_part2 (F := F) x1 x2 _ ix0 = 1#1 := h0
  exact of_part2 x1 x2 _ h1

end Cert.IndexRange
-- ==== Proof.EdgeMlp.lean ====
/-
  The function both programs compute, edge by edge, on the extended reals.

  An edge `e` joins the nodes `s = src e` and `d = dst e`; with `a` and `b` the two nodes' 128 features, the edge's
  feature vector is the 512 numbers `[a, b, |a - b|, a * b]` (four pieces of width 128 laid side by side), and its
  two scores are a three-layer perceptron of that vector: `relu (x W1 + b1)`, `relu (· W2 + b2)`, `· W3 + b3`, every
  product a plain sum over the contracted axis. Nothing here needs the inputs to be finite: the two programs
  spell the SAME sums in the same order, so no law of the extended reals is used beyond rewriting equals.
-/
import Idealize.ShloMosaic.PureOps.Ideal
import Idealize.ShloMosaic.Lib.ValueIdx

noncomputable section

open scoped BigOperators

namespace EdgeMlp

open Idealize.ShloMosaic Idealize.ShloMosaic.ValueIdx

/-- The zero a rectifier compares with: the extended real the all-zero f32 word encodes. -/
abbrev zeroWord : EReal := Ideal.ofBits .f32 0x00000000#32

/-- Row `r` of a matrix with 128 columns. -/
def rowOf {n : Nat} (x : (⟨2, ![n, 128]⟩ : Shape).Idx → EReal) (r : Fin n) : Fin 128 → EReal :=
  fun c => x (ix2 r c)

/-- The four pieces of an edge's features from its endpoints' rows `a`, `b`: `a`, `b`, `|a - b|` (the extended reals'
    `max x (-x)`) and `a * b`. -/
def piece (a b : Fin 128 → EReal) : Fin 4 → Fin 128 → EReal
  | ⟨0, _⟩ => a
  | ⟨1, _⟩ => b
  | ⟨2, _⟩ => fun c => max (a c - b c) (-(a c - b c))
  | ⟨3, _⟩ => fun c => a c * b c
  | ⟨_ + 4, h⟩ => absurd h (by omega)

/-- The 512 features: column `k` lies in piece `k / 128` at place `k % 128`. -/
def feat (a b : Fin 128 → EReal) (k : Fin 512) : EReal :=
  piece a b ⟨k.val / 128, by have := k.isLt; omega⟩ ⟨k.val % 128, Nat.mod_lt _ (by decide)⟩

/-- First layer, 512 → 256, rectified. -/
def hidden1 (W1 : (⟨2, ![512, 256]⟩ : Shape).Idx → EReal) (b1 : (⟨1, ![256]⟩ : Shape).Idx → EReal)
    (x : Fin 512 → EReal) (j : Fin 256) : EReal :=
  max ((∑ k : Fin 512, x k * W1 (ix2 k j)) + b1 (ix1 j)) zeroWord

/-- Second layer, 256 → 128, rectified. -/
def hidden2 (W2 : (⟨2, ![256, 128]⟩ : Shape).Idx → EReal) (b2 : (⟨1, ![128]⟩ : Shape).Idx → EReal)
    (x : Fin 256 → EReal) (j : Fin 128) : EReal :=
  max ((∑ k : Fin 256, x k * W2 (ix2 k j)) + b2 (ix1 j)) zeroWord

/-- Last layer, 128 → 2, not rectified. -/
def logits (W3 : (⟨2, ![128, 2]⟩ : Shape).Idx → EReal) (b3 : (⟨1, ![2]⟩ : Shape).Idx → EReal)
    (x : Fin 128 → EReal) (j : Fin 2) : EReal :=
  (∑ k : Fin 128, x k * W3 (ix2 k j)) + b3 (ix1 j)

/-- An edge's two scores from its endpoints' rows. -/
def edgeScore (W1 : (⟨2, ![512, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (W3 : (⟨2, ![128, 2]⟩ : Shape).Idx → EReal) (b3 : (⟨1, ![2]⟩ : Shape).Idx → EReal)
    (a b : Fin 128 → EReal) (j : Fin 2) : EReal :=
  logits W3 b3 (hidden2 W2 b2 (hidden1 W1 b1 (feat a b))) j

/-- The scores of `n` edges whose endpoint rows are ALREADY gathered into two `n × 128` matrices: row `e` of the
    result depends on row `e` of each and on nothing else. -/
def rowScores {n : Nat} (W1 : (⟨2, ![512, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (W3 : (⟨2, ![128, 2]⟩ : Shape).Idx → EReal) (b3 : (⟨1, ![2]⟩ : Shape).Idx → EReal)
    (hi hj : (⟨2, ![n, 128]⟩ : Shape).Idx → EReal) : (⟨2, ![n, 2]⟩ : Shape).Idx → EReal :=
  fun i => edgeScore W1 b1 W2 b2 W3 b3 (rowOf hi (i 0)) (rowOf hj (i 0)) (i 1)

/-- The node a 32-bit index word names among 50000: read signed, negative words to 0, words past the end to the
    last node (on words in range, the word's own value). -/
def nodeOf (x : (⟨1, ![500000]⟩ : Shape).Idx → BitVec 32) (e : Fin 500000) : Fin 50000 :=
  ⟨min (x (ix1 e)).toInt.toNat 49999, by omega⟩

/-- THE RESULT: edge `e`'s scores from the node table, the two index arrays and the weights. -/
def scores (node : (⟨2, ![50000, 128]⟩ : Shape).Idx → EReal)
    (src dst : (⟨1, ![500000]⟩ : Shape).Idx → BitVec 32)
    (W1 : (⟨2, ![512, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (W3 : (⟨2, ![128, 2]⟩ : Shape).Idx → EReal) (b3 : (⟨1, ![2]⟩ : Shape).Idx → EReal) :
    (⟨2, ![500000, 2]⟩ : Shape).Idx → EReal :=
  fun i => edgeScore W1 b1 W2 b2 W3 b3 (rowOf node (nodeOf src (i 0))) (rowOf node (nodeOf dst (i 0))) (i 1)

end EdgeMlp

end
-- ==== Proof.LibGatherRows.lean ====
/-
  `stablehlo.gather` of WHOLE ROWS of a rank-2 table at a column of start indices, read at an index.

  What `x[idx]` of a table `x : [N, C]` at an integer array `idx : [R]` lowers to: a gather with offset_dims `[1]`,
  collapsed_slice_dims `[0]`, start_index_map `[0]`, index_vector_dim `1` and slice_sizes `[1, C]` over the indices
  as `[R, 1]`. Result element `(e, c)` is the table at column `c` of the row the start index `idx[e, 0]` names, the
  index read as a signed integer and clamped into `[0, N − 1]` (a gather clamps every start index so that its
  slice fits; here the slice is one row high).
-/
import Idealize.ShloMosaic.Lib.ValueIdx

noncomputable section

namespace Idealize.ShloMosaic.ValueIdx

open Idealize.ShloMosaic

section Rows
variable {α : Type}

/-- The row gather at a record given as a literal whose conditions `wf` are a variable: result element `(e, c)` is
    the table at row `clamp (idx[e, 0])` and column `c`. On operand axis 0 (collapsed, named by the start index
    map) the coordinate is the clamped start index alone; on axis 1 (the one offset axis, slice size the full
    width) it is the result's own column. -/
theorem gather_rows_lit_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (⟨[1], [0], [], [], [0], 1, ![1, C], wf⟩ : GatherDims ⟨2, ![N, C]⟩ ⟨2, ![R, 1]⟩ ⟨2, ![R, C]⟩) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ [(0 : Fin 2)] from List.mem_singleton.mpr rfl)]
    have hsi : GatherDims.siIdx (⟨[1], [0], [], [], [0], 1, ![1, C], wf⟩ : GatherDims ⟨2, ![N, C]⟩ ⟨2, ![R, 1]⟩ ⟨2, ![R, C]⟩)
        (ix2 e c) ⟨List.idxOf (0 : Fin 2) [(0 : Fin 2)], List.idxOf_lt_length_iff.2 (List.mem_singleton.mpr rfl)⟩
          = ix2 e ⟨0, Nat.one_pos⟩ := by
      funext b; refine Fin.ext ?_
      match b with
      | ⟨0, _⟩ => rfl
      | ⟨1, _⟩ => rfl
    rw [hsi]
    rfl
  | ⟨1, _⟩ =>
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ [(0 : Fin 2)] by decide)]
    simp only [Nat.add_zero, Nat.zero_add]
    rfl

/-- THE ROW GATHER READ AT `(e, c)`, for ANY record `d` with these dimension numbers (each field equation closes by
    `rfl` at a program's record): the table at the row `idx[e, 0]` names, read signed and clamped into `[0, N − 1]`,
    and column `c`. -/
theorem gather_rows_apply {N R C w : Nat} (hN : 0 < N)
    (d : GatherDims ⟨2, ![N, C]⟩ ⟨2, ![R, 1]⟩ ⟨2, ![R, C]⟩)
    (hoff : d.offsetDims = [1]) (hcol : d.collapsedSliceDims = [0]) (hob : d.operandBatchingDims = [])
    (hsb : d.startIndicesBatchingDims = []) (hmap : d.startIndexMap = [0]) (hivd : d.indexVectorDim = 1)
    (hss : d.sliceSizes = ![1, C])
    (x : (⟨2, ![N, C]⟩ : Shape).Idx → α) (idx : IVec ⟨2, ![R, 1]⟩ w) (e : Fin R) (c : Fin C) :
    Host.gather d x idx (ix2 e c) = x (ix2 ⟨min (idx (ix2 e ⟨0, Nat.one_pos⟩)).toInt.toNat (N - 1), by omega⟩ c) := by
  obtain ⟨od, cd, ob, sb, sm, iv, ss, wf⟩ := d
  dsimp only at hoff hcol hob hsb hmap hivd hss
  subst hoff hcol hob hsb hmap hivd hss
  exact gather_rows_lit_apply hN wf x idx e c

end Rows

end Idealize.ShloMosaic.ValueIdx

end
-- ==== Proof.RefScores.lean ====
/-
  The reference program's result is the specification `EdgeMlp.scores`.

  The program gathers the two endpoint rows of every edge, lays `[a, b, |a - b|, a * b]` side by side and applies
  three dense layers. Read at one edge `e`, each operation is the matching line of the specification: the gathers
  are rows of the node table (a start index that is not negative is used as it is, and clamping it is what
  `EdgeMlp.nodeOf` says), the concatenation is `EdgeMlp.feat`, each `dot_general` with its bias (and rectifier) is one
  layer, the sums taken over the same index set in the same order.
-/
import proofs.«427881_j87471303950751_3_alg».proof.Proof.Gen.ReferenceIdeal.Read
import proofs.«427881_j87471303950751_3_alg».proof.Proof.EdgeMlp
import proofs.«427881_j87471303950751_3_alg».proof.Proof.LibGatherRows

noncomputable section

open scoped BigOperators

namespace Cert.RefScores

open Cert.ReferenceIdeal Cert.ReferenceIdeal.Gen Cert.ReferenceIdeal.Read Idealize.ShloMosaic Idealize.ShloMosaic.ValueIdx

/-! ## The start indices -/

/-- A word that is not negative is not below zero in the signed order. -/
theorem cmpi_slt_zero {x : BitVec 32} (h : 0 ≤ x.toInt) : IntOp.cmpi .slt x 0#32 = 0#1 := by
  unfold IntOp.cmpi
  have h0 : x.slt 0#32 = false := by
    unfold BitVec.slt
    simp only [BitVec.toInt_zero, decide_eq_false_iff_not, not_lt]
    exact h
  simp only [h0]
  rfl

/-- The first gather's start index at edge `e`: the source word itself when it is not negative (the program adds
    the table's height to a negative one). -/
theorem start_src (x1 : (⟨S500000, .i32⟩ : BufTy).Contents (Elt Ideal)) (e : Fin 500000) (h : 0 ≤ (x1 (ix1 e)).toInt) :
    val_main_v5 (F := Ideal) x1 (ix2 e ⟨0, Nat.one_pos⟩) = x1 (ix1 e) := by
  have hi : idx_main_v5 (ix2 e ⟨0, Nat.one_pos⟩) = ix1 e := by
    funext a; match a with | ⟨0, _⟩ => rfl
  rw [val_main_v5_apply, val_main_v4_apply, val_main_v1_apply, val_main_v0_apply, val_main_c_apply, hi,
    cmpi_slt_zero h, select_zero]

/-- The second gather's start index at edge `e`: the destination word itself when it is not negative. -/
theorem start_dst (x2 : (⟨S500000, .i32⟩ : BufTy).Contents (Elt Ideal)) (e : Fin 500000) (h : 0 ≤ (x2 (ix1 e)).toInt) :
    val_main_v12 (F := Ideal) x2 (ix2 e ⟨0, Nat.one_pos⟩) = x2 (ix1 e) := by
  have hi : idx_main_v12 (ix2 e ⟨0, Nat.one_pos⟩) = ix1 e := by
    funext a; match a with | ⟨0, _⟩ => rfl
  rw [val_main_v12_apply, val_main_v11_apply, val_main_v8_apply, val_main_v7_apply, val_main_c_1_apply, hi,
    cmpi_slt_zero h, select_zero]

/-! ## The gathered rows -/

/-- Row `e` of the first gather is the source node's row of the table. -/
theorem gathered_src (x0 : (⟨S50000x128, .f32⟩ : BufTy).Contents (Elt Ideal)) (x1 : (⟨S500000, .i32⟩ : BufTy).Contents (Elt Ideal)) (e : Fin 500000) (h : 0 ≤ (x1 (ix1 e)).toInt) (c : Fin 128) :
    val_main_v6 (F := Ideal) x0 x1 (ix2 e c) = EdgeMlp.rowOf x0 (EdgeMlp.nodeOf x1 e) c := by
  unfold val_main_v6
  rw [gather_rows_apply (by decide) _ rfl rfl rfl rfl rfl rfl rfl]
  exact congrArg (fun r => x0 (ix2 r c))
    (Fin.ext (congrArg (fun w : BitVec 32 => min w.toInt.toNat 49999) (start_src x1 e h)))

/-- Row `e` of the second gather is the destination node's row of the table. -/
theorem gathered_dst (x0 : (⟨S50000x128, .f32⟩ : BufTy).Contents (Elt Ideal)) (x2 : (⟨S500000, .i32⟩ : BufTy).Contents (Elt Ideal)) (e : Fin 500000) (h : 0 ≤ (x2 (ix1 e)).toInt) (c : Fin 128) :
    val_main_v13 (F := Ideal) x0 x2 (ix2 e c) = EdgeMlp.rowOf x0 (EdgeMlp.nodeOf x2 e) c := by
  unfold val_main_v13
  rw [gather_rows_apply (by decide) _ rfl rfl rfl rfl rfl rfl rfl]
  exact congrArg (fun r => x0 (ix2 r c))
    (Fin.ext (congrArg (fun w : BitVec 32 => min w.toInt.toNat 49999) (start_dst x2 e h)))

/-! ## The features -/

/-- The four arrays the program joins along the columns, as a function of the piece's number. -/
def pieces (x0 : (⟨S50000x128, .f32⟩ : BufTy).Contents (Elt Ideal)) (x1 : (⟨S500000, .i32⟩ : BufTy).Contents (Elt Ideal)) (x2 : (⟨S500000, .i32⟩ : BufTy).Contents (Elt Ideal)) : Fin 4 → (S500000x128.Idx → EReal)
  | ⟨0, _⟩ => val_main_v6 (F := Ideal) x0 x1
  | ⟨1, _⟩ => val_main_v13 (F := Ideal) x0 x2
  | ⟨2, _⟩ => val_main_v15 (F := Ideal) x0 x1 x2
  | ⟨3, _⟩ => val_main_v16 (F := Ideal) x0 x1 x2
  | ⟨_ + 4, h⟩ => absurd h (by omega)

/-- Piece `n` at edge `e` is piece `n` of the specification's features of the two endpoint rows. -/
theorem pieces_apply (x0 : (⟨S50000x128, .f32⟩ : BufTy).Contents (Elt Ideal)) (x1 : (⟨S500000, .i32⟩ : BufTy).Contents (Elt Ideal)) (x2 : (⟨S500000, .i32⟩ : BufTy).Contents (Elt Ideal)) (e : Fin 500000)
    (hs : 0 ≤ (x1 (ix1 e)).toInt) (hd : 0 ≤ (x2 (ix1 e)).toInt) (n : Fin 4) (c : Fin 128) :
    pieces x0 x1 x2 n (ix2 e c)
      = EdgeMlp.piece (EdgeMlp.rowOf x0 (EdgeMlp.nodeOf x1 e)) (EdgeMlp.rowOf x0 (EdgeMlp.nodeOf x2 e)) n c := by
  match n with
  | ⟨0, _⟩ => exact gathered_src x0 x1 e hs c
  | ⟨1, _⟩ => exact gathered_dst x0 x2 e hd c
  | ⟨2, _⟩ =>
    show val_main_v15 (F := Ideal) x0 x1 x2 (ix2 e c) = _
    rw [val_main_v15_apply, val_main_v14_apply, gathered_src x0 x1 e hs c, gathered_dst x0 x2 e hd c]
    rfl
  | ⟨3, _⟩ =>
    show val_main_v16 (F := Ideal) x0 x1 x2 (ix2 e c) = _
    rw [val_main_v16_apply, gathered_src x0 x1 e hs c, gathered_dst x0 x2 e hd c]
    rfl
  | ⟨_ + 4, h⟩ => exact absurd h (by omega)

/-- Row `e` of the joined array is the specification's 512 features of the two endpoint rows: column `k` lies in
    piece `k / 128` at place `k % 128`. -/
theorem feat_row (x0 : (⟨S50000x128, .f32⟩ : BufTy).Contents (Elt Ideal)) (x1 : (⟨S500000, .i32⟩ : BufTy).Contents (Elt Ideal)) (x2 : (⟨S500000, .i32⟩ : BufTy).Contents (Elt Ideal)) (e : Fin 500000)
    (hs : 0 ≤ (x1 (ix1 e)).toInt) (hd : 0 ≤ (x2 (ix1 e)).toInt) (k : Fin 512) :
    val_main_v17 (F := Ideal) x0 x1 x2 (ix2 e k)
      = EdgeMlp.feat (EdgeMlp.rowOf x0 (EdgeMlp.nodeOf x1 e)) (EdgeMlp.rowOf x0 (EdgeMlp.nodeOf x2 e)) k := by
  have hk := k.isLt
  have hcat := concatenate_ofFn_apply (t := S500000x512) (s₁ := S500000x128) (1 : Fin 2) (pieces x0 x1 x2)
    concatenates_S500000x128_S500000x128_S500000x128_S500000x128_S500000x512_d1 rfl 128 rfl (ix2 e k)
    ⟨k.val / 128, by omega⟩ rfl (ix2 e ⟨k.val % 128, Nat.mod_lt _ (by decide)⟩) rfl
    (fun b hb => match b with
      | ⟨0, _⟩ => rfl
      | ⟨1, _⟩ => absurd rfl hb)
  exact hcat.trans (pieces_apply x0 x1 x2 e hs hd _ _)

/-! ## The three layers, each read at one edge from the layer below at that edge -/

/-- First layer at edge `e`. -/
theorem hidden1_row (x0 : (⟨S50000x128, .f32⟩ : BufTy).Contents (Elt Ideal)) (x1 : (⟨S500000, .i32⟩ : BufTy).Contents (Elt Ideal)) (x2 : (⟨S500000, .i32⟩ : BufTy).Contents (Elt Ideal)) (x3 : (⟨S512x256, .f32⟩ : BufTy).Contents (Elt Ideal)) (x4 : (⟨S256, .f32⟩ : BufTy).Contents (Elt Ideal)) (e : Fin 500000) (j : Fin 256) :
    val_main_v22 (F := Ideal) x0 x1 x2 x3 x4 (ix2 e j)
      = EdgeMlp.hidden1 x3 x4 (fun k => val_main_v17 (F := Ideal) x0 x1 x2 (ix2 e k)) j := by
  have hl : ∀ k, lidx_main_v18 (ix2 e j) k = ix2 e k := fun k => by
    funext a; match a with | ⟨0, _⟩ => rfl | ⟨1, _⟩ => rfl
  have hr : ∀ k, ridx_main_v18 (ix2 e j) k = ix2 k j := fun k => by
    funext a; match a with | ⟨0, _⟩ => rfl | ⟨1, _⟩ => rfl
  have hb : idx_main_v19 (idx_main_v20 (ix2 e j)) = ix1 j := by
    funext a; match a with | ⟨0, _⟩ => rfl
  rw [val_main_v22_apply, val_main_v21_apply, val_main_v18_apply, val_main_v20_apply, val_main_v19_apply,
    val_main_call0_v0_apply, val_main_call0_cst_apply, hb]
  simp only [hl, hr]
  rfl

/-- Second layer at edge `e`. -/
theorem hidden2_row (x0 : (⟨S50000x128, .f32⟩ : BufTy).Contents (Elt Ideal)) (x1 : (⟨S500000, .i32⟩ : BufTy).Contents (Elt Ideal)) (x2 : (⟨S500000, .i32⟩ : BufTy).Contents (Elt Ideal)) (x3 : (⟨S512x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (e : Fin 500000) (j : Fin 128) :
    val_main_v27 (F := Ideal) x0 x1 x2 x3 x4 x5 x6 (ix2 e j)
      = EdgeMlp.hidden2 x5 x6 (fun k => val_main_v22 (F := Ideal) x0 x1 x2 x3 x4 (ix2 e k)) j := by
  have hl : ∀ k, lidx_main_v23 (ix2 e j) k = ix2 e k := fun k => by
    funext a; match a with | ⟨0, _⟩ => rfl | ⟨1, _⟩ => rfl
  have hr : ∀ k, ridx_main_v23 (ix2 e j) k = ix2 k j := fun k => by
    funext a; match a with | ⟨0, _⟩ => rfl | ⟨1, _⟩ => rfl
  have hb : idx_main_v24 (idx_main_v25 (ix2 e j)) = ix1 j := by
    funext a; match a with | ⟨0, _⟩ => rfl
  rw [val_main_v27_apply, val_main_v26_apply, val_main_v23_apply, val_main_v25_apply, val_main_v24_apply,
    val_main_call1_v0_apply, val_main_call1_cst_apply, hb]
  simp only [hl, hr]
  rfl

/-- Last layer at edge `e`. -/
theorem logits_row (x0 : (⟨S50000x128, .f32⟩ : BufTy).Contents (Elt Ideal)) (x1 : (⟨S500000, .i32⟩ : BufTy).Contents (Elt Ideal)) (x2 : (⟨S500000, .i32⟩ : BufTy).Contents (Elt Ideal)) (x3 : (⟨S512x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S128x2, .f32⟩ : BufTy).Contents (Elt Ideal)) (x8 : (⟨S2, .f32⟩ : BufTy).Contents (Elt Ideal)) (e : Fin 500000) (j : Fin 2) :
    val_main_v31 (F := Ideal) x0 x1 x2 x3 x4 x5 x6 x7 x8 (ix2 e j)
      = EdgeMlp.logits x7 x8 (fun k => val_main_v27 (F := Ideal) x0 x1 x2 x3 x4 x5 x6 (ix2 e k)) j := by
  have hl : ∀ k, lidx_main_v28 (ix2 e j) k = ix2 e k := fun k => by
    funext a; match a with | ⟨0, _⟩ => rfl | ⟨1, _⟩ => rfl
  have hr : ∀ k, ridx_main_v28 (ix2 e j) k = ix2 k j := fun k => by
    funext a; match a with | ⟨0, _⟩ => rfl | ⟨1, _⟩ => rfl
  have hb : idx_main_v29 (idx_main_v30 (ix2 e j)) = ix1 j := by
    funext a; match a with | ⟨0, _⟩ => rfl
  rw [val_main_v31_apply, val_main_v28_apply, val_main_v30_apply, val_main_v29_apply, hb]
  simp only [hl, hr]
  rfl

/-! ## The result -/

/-- THE REFERENCE'S RESULT IS THE SPECIFICATION, for index arrays whose words name nodes of the table. -/
theorem val_eq (x0 : (⟨S50000x128, .f32⟩ : BufTy).Contents (Elt Ideal)) (x1 x2 : (⟨S500000, .i32⟩ : BufTy).Contents (Elt Ideal)) (x3 : (⟨S512x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S128x2, .f32⟩ : BufTy).Contents (Elt Ideal)) (x8 : (⟨S2, .f32⟩ : BufTy).Contents (Elt Ideal))
    (hs : ∀ e : Fin 500000, 0 ≤ (x1 (ix1 e)).toInt ∧ (x1 (ix1 e)).toInt < 50000)
    (hd : ∀ e : Fin 500000, 0 ≤ (x2 (ix1 e)).toInt ∧ (x2 (ix1 e)).toInt < 50000) :
    Cert.ReferenceIdeal.Read.val_main_v31 (F := Ideal) x0 x1 x2 x3 x4 x5 x6 x7 x8
      = EdgeMlp.scores x0 x1 x2 x3 x4 x5 x6 x7 x8 := by
  funext i
  obtain ⟨e, j, rfl⟩ : ∃ e j, i = ix2 e j := ⟨i 0, i 1, eq_ix2 i⟩
  have h17 : (fun k => val_main_v17 (F := Ideal) x0 x1 x2 (ix2 e k))
      = EdgeMlp.feat (EdgeMlp.rowOf x0 (EdgeMlp.nodeOf x1 e)) (EdgeMlp.rowOf x0 (EdgeMlp.nodeOf x2 e)) :=
    funext fun k => feat_row x0 x1 x2 e (hs e).1 (hd e).1 k
  have h22 : (fun k => val_main_v22 (F := Ideal) x0 x1 x2 x3 x4 (ix2 e k))
      = EdgeMlp.hidden1 x3 x4 (EdgeMlp.feat (EdgeMlp.rowOf x0 (EdgeMlp.nodeOf x1 e)) (EdgeMlp.rowOf x0 (EdgeMlp.nodeOf x2 e))) :=
    funext fun k => by rw [hidden1_row, h17]
  have h27 : (fun k => val_main_v27 (F := Ideal) x0 x1 x2 x3 x4 x5 x6 (ix2 e k))
      = EdgeMlp.hidden2 x5 x6 (EdgeMlp.hidden1 x3 x4 (EdgeMlp.feat (EdgeMlp.rowOf x0 (EdgeMlp.nodeOf x1 e)) (EdgeMlp.rowOf x0 (EdgeMlp.nodeOf x2 e)))) :=
    funext fun k => by rw [hidden2_row, h22]
  rw [logits_row, h27]
  rfl

end Cert.RefScores

end
-- ==== Proof.KernelRow.lean ====
/-
  One block of the kernel, row by row.

  At a grid point the kernel holds 4096 gathered source rows `x0`, 4096 gathered destination rows `x1` and the six
  weight arrays whole, and stores ONE value: the three-layer perceptron of the concatenated features, every
  matrix product accumulated from a zero splat. Read at row `y` and column `j`, that value is the specification's
  `edgeScore` of row `y` of `x0` and row `y` of `x1`: each product is the plain sum over its one contracted axis,
  each bias a row broadcast down the block, each rectifier a maximum with the zero word, and the narrowing
  format changes are the identity on the extended reals.
-/
import proofs.«427881_j87471303950751_3_alg».proof.Proof.Gen.KernelIdeal.Skeleton
import proofs.«427881_j87471303950751_3_alg».proof.Proof.EdgeMlp
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The features of a block -/

/-- The four pieces the block concatenates, as a family. -/
def pieces (x0 x1 : FVec Ideal S4096x128 .bf16) : Fin 4 → (S4096x128.Idx → EReal)
  | ⟨0, _⟩ => x0
  | ⟨1, _⟩ => x1
  | ⟨2, _⟩ => absf (subf x0 x1)
  | ⟨3, _⟩ => mulf x0 x1
  | ⟨_ + 4, h⟩ => absurd h (by omega)

/-- Piece `n` of the block at `(y, c)` is piece `n` of the specification's features of the two rows `y`. -/
theorem pieces_apply (x0 x1 : FVec Ideal S4096x128 .bf16) (n : Fin 4) (y : Fin 4096) (c : Fin 128) :
    pieces x0 x1 n (ix2 y c) = EdgeMlp.piece (EdgeMlp.rowOf x0 y) (EdgeMlp.rowOf x1 y) n c := by
  match n with
  | ⟨0, _⟩ => rfl
  | ⟨1, _⟩ => rfl
  | ⟨2, _⟩ => rfl
  | ⟨3, _⟩ => rfl

/-- The concatenated features at `(y, k)`: column `k` lies in piece `k / 128` at place `k % 128`. -/
theorem feat_apply (x0 x1 : FVec Ideal S4096x128 .bf16) (y : Fin 4096) (k : Fin 512) :
    concatenate S4096x512 1 [⟨S4096x128, x0⟩, ⟨S4096x128, x1⟩, ⟨S4096x128, absf (subf x0 x1)⟩, ⟨S4096x128, mulf x0 x1⟩]
        concatenates_S4096x128_S4096x128_S4096x128_S4096x128_S4096x512_d1 (ix2 y k)
      = EdgeMlp.feat (EdgeMlp.rowOf x0 y) (EdgeMlp.rowOf x1 y) k := by
  have hk := k.isLt
  refine (concatenate_ofFn_apply (t := S4096x512) (s₁ := S4096x128) (1 : Fin 2) (pieces x0 x1)
    concatenates_S4096x128_S4096x128_S4096x128_S4096x128_S4096x512_d1 rfl 128 rfl (ix2 y k)
    ⟨k.val / 128, by omega⟩ rfl (ix2 y ⟨k.val % 128, Nat.mod_lt _ (by decide)⟩) rfl (fun b hb => ?_)).trans ?_
  · match b with
    | ⟨0, _⟩ => rfl
    | ⟨1, _⟩ => exact absurd rfl hb
  · exact pieces_apply x0 x1 _ y _

/-! ## The three matrix products, each the plain sum over its contracted axis

The contraction index of each product has one axis; its sum is re-indexed over that axis's coordinate, and the
operand indices at output `(y, j)` and contraction coordinate `k` are `(y, k)` and `(k, j)`. -/

theorem lhs_first_0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
theorem lhs_first_1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q
theorem rhs_first_0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q
theorem rhs_first_1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl

/-- The first product, 4096×512 by 512×256 into zero, at `(y, j)`. -/
theorem first_apply (l : FVec Ideal S4096x512 .bf16) (r : FVec Ideal S512x256 .bf16) (y : Fin 4096) (j : Fin 256) :
    matmul dot_S4096x512_S512x256_S4096x256_1_0_0_1_n_n none l r (constant S4096x256 .f32 0x00000000#32) (ix2 y j)
      = ∑ k : Fin 512, l (ix2 y k) * r (ix2 k j) := by
  show FloatOps.matmul dot_S4096x512_S512x256_S4096x256_1_0_0_1_n_n none l r (constant S4096x256 .f32 0x00000000#32) (ix2 y j) = _
  rw [Ideal.matmul_constant_zero_apply, ← Equiv.sum_comp (ValueIdx.contrEquiv1 dot_S4096x512_S512x256_S4096x256_1_0_0_1_n_n 512 rfl rfl).symm]
  refine Finset.sum_congr rfl fun k _ => ?_
  have hk := ValueIdx.contrEquiv1_symm_val dot_S4096x512_S512x256_S4096x256_1_0_0_1_n_n 512 rfl rfl k
  have el : dot_S4096x512_S512x256_S4096x256_1_0_0_1_n_n.lhsIdx (ix2 y j) ((ValueIdx.contrEquiv1 dot_S4096x512_S512x256_S4096x256_1_0_0_1_n_n 512 rfl rfl).symm k) = ix2 y k := funext fun a => Fin.ext (by
    match a with
    | ⟨0, _⟩ => exact lhs_first_0 _ _
    | ⟨1, _⟩ => exact (lhs_first_1 _ _).trans hk)
  have er : dot_S4096x512_S512x256_S4096x256_1_0_0_1_n_n.rhsIdx (ix2 y j) ((ValueIdx.contrEquiv1 dot_S4096x512_S512x256_S4096x256_1_0_0_1_n_n 512 rfl rfl).symm k) = ix2 k j := funext fun a => Fin.ext (by
    match a with
    | ⟨0, _⟩ => exact (rhs_first_0 _ _).trans hk
    | ⟨1, _⟩ => exact rhs_first_1 _ _)
  rw [el, er]

theorem lhs_second_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
theorem lhs_second_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
theorem rhs_second_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
theorem rhs_second_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- The second product, 4096×256 by 256×128 into zero, at `(y, j)`. -/
theorem second_apply (l : FVec Ideal S4096x256 .bf16) (r : FVec Ideal S256x128 .bf16) (y : Fin 4096) (j : Fin 128) :
    matmul dot_S4096x256_S256x128_S4096x128_1_0_0_1_n_n none l r (constant S4096x128 .f32 0x00000000#32) (ix2 y j)
      = ∑ k : Fin 256, l (ix2 y k) * r (ix2 k j) := by
  show FloatOps.matmul dot_S4096x256_S256x128_S4096x128_1_0_0_1_n_n none l r (constant S4096x128 .f32 0x00000000#32) (ix2 y j) = _
  rw [Ideal.matmul_constant_zero_apply, ← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx (ix2 y j) ((ValueIdx.contrEquiv1 dot_S4096x256_S256x128_S4096x128_1_0_0_1_n_n 256 rfl rfl).symm k) = ix2 y k := funext fun a => Fin.ext (by
    match a with
    | ⟨0, _⟩ => exact lhs_second_0 _ _
    | ⟨1, _⟩ => exact (lhs_second_1 _ _).trans hk)
  have er : dot_S4096x256_S256x128_S4096x128_1_0_0_1_n_n.rhsIdx (ix2 y j) ((ValueIdx.contrEquiv1 dot_S4096x256_S256x128_S4096x128_1_0_0_1_n_n 256 rfl rfl).symm k) = ix2 k j := funext fun a => Fin.ext (by
    match a with
    | ⟨0, _⟩ => exact (rhs_second_0 _ _).trans hk
    | ⟨1, _⟩ => exact rhs_second_1 _ _)
  rw [el, er]

theorem lhs_third_0 (i : S4096x2.Idx) (q : dot_S4096x128_S128x2_S4096x2_1_0_0_1_n_n.contr.Idx) :
    (dot_S4096x128_S128x2_S4096x2_1_0_0_1_n_n.lhsIdx i q 0).val = (i 0).val := by
  unfold DotDims.lhsIdx
  rw [dif_neg (show ¬(0 : Fin S4096x128.rank) ∈ dot_S4096x128_S128x2_S4096x2_1_0_0_1_n_n.lhsBatch by decide), dif_pos (show (0 : Fin S4096x128.rank) ∈ dot_S4096x128_S128x2_S4096x2_1_0_0_1_n_n.lhsNonContracting by decide)]
  rfl
theorem lhs_third_1 (i : S4096x2.Idx) (q : dot_S4096x128_S128x2_S4096x2_1_0_0_1_n_n.contr.Idx) :
    (dot_S4096x128_S128x2_S4096x2_1_0_0_1_n_n.lhsIdx i q 1).val = (q ⟨0, by decide⟩).val :=
  dot_S4096x128_S128x2_S4096x2_1_0_0_1_n_n.lhsIdx_val_of_single rfl i q
theorem rhs_third_0 (i : S4096x2.Idx) (q : dot_S4096x128_S128x2_S4096x2_1_0_0_1_n_n.contr.Idx) :
    (dot_S4096x128_S128x2_S4096x2_1_0_0_1_n_n.rhsIdx i q 0).val = (q ⟨0, by decide⟩).val :=
  dot_S4096x128_S128x2_S4096x2_1_0_0_1_n_n.rhsIdx_val_of_single rfl i q
theorem rhs_third_1 (i : S4096x2.Idx) (q : dot_S4096x128_S128x2_S4096x2_1_0_0_1_n_n.contr.Idx) :
    (dot_S4096x128_S128x2_S4096x2_1_0_0_1_n_n.rhsIdx i q 1).val = (i 1).val := by
  unfold DotDims.rhsIdx
  rw [dif_neg (show ¬(1 : Fin S128x2.rank) ∈ dot_S4096x128_S128x2_S4096x2_1_0_0_1_n_n.rhsBatch by decide), dif_pos (show (1 : Fin S128x2.rank) ∈ dot_S4096x128_S128x2_S4096x2_1_0_0_1_n_n.rhsNonContracting by decide)]
  rfl

/-- The third product, 4096×128 by 128×2 into zero, at `(y, j)`. -/
theorem third_apply (l : FVec Ideal S4096x128 .bf16) (r : FVec Ideal S128x2 .bf16) (y : Fin 4096) (j : Fin 2) :
    matmul dot_S4096x128_S128x2_S4096x2_1_0_0_1_n_n none l r (constant S4096x2 .f32 0x00000000#32) (ix2 y j)
      = ∑ k : Fin 128, l (ix2 y k) * r (ix2 k j) := by
  show FloatOps.matmul dot_S4096x128_S128x2_S4096x2_1_0_0_1_n_n none l r (constant S4096x2 .f32 0x00000000#32) (ix2 y j) = _
  rw [Ideal.matmul_constant_zero_apply, ← Equiv.sum_comp (ValueIdx.contrEquiv1 dot_S4096x128_S128x2_S4096x2_1_0_0_1_n_n 128 rfl rfl).symm]
  refine Finset.sum_congr rfl fun k _ => ?_
  have hk := ValueIdx.contrEquiv1_symm_val dot_S4096x128_S128x2_S4096x2_1_0_0_1_n_n 128 rfl rfl k
  have el : dot_S4096x128_S128x2_S4096x2_1_0_0_1_n_n.lhsIdx (ix2 y j) ((ValueIdx.contrEquiv1 dot_S4096x128_S128x2_S4096x2_1_0_0_1_n_n 128 rfl rfl).symm k) = ix2 y k := funext fun a => Fin.ext (by
    match a with
    | ⟨0, _⟩ => exact lhs_third_0 _ _
    | ⟨1, _⟩ => exact (lhs_third_1 _ _).trans hk)
  have er : dot_S4096x128_S128x2_S4096x2_1_0_0_1_n_n.rhsIdx (ix2 y j) ((ValueIdx.contrEquiv1 dot_S4096x128_S128x2_S4096x2_1_0_0_1_n_n 128 rfl rfl).symm k) = ix2 k j := funext fun a => Fin.ext (by
    match a with
    | ⟨0, _⟩ => exact (rhs_third_0 _ _).trans hk
    | ⟨1, _⟩ => exact rhs_third_1 _ _)
  rw [el, er]

/-! ## A bias: one row, broadcast down the block -/

/-- A length-`b` vector made a row and broadcast to `a` rows reads, at `(p, c)`, the vector at `c`. -/
theorem bias_apply {a b : Nat} (v : (⟨1, ![b]⟩ : Shape).Idx → EReal) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ v h) h' (ix2 p c) = v (ix1 c) := by
  rw [broadcastTo_1b_ab_apply, shapeCast_a_1a_apply]

/-! ## The layers of a block, and the block's value -/

/-- First layer of the block at `(y, j)`, from any 4096×512 feature matrix `f`. -/
theorem layer1_apply (f : FVec Ideal S4096x512 .bf16) (x2 : Vec Ideal S512x256 .f32) (x3 : Vec Ideal S256 .f32)
    (y : Fin 4096) (j : Fin 256) :
    maximumf (addf (matmul dot_S4096x512_S512x256_S4096x256_1_0_0_1_n_n none f (truncf .bf16 x2 bitsLt_bf16_f32) (constant S4096x256 .f32 0x00000000#32))
        (broadcastTo S4096x256 (shapeCast S1x256 x3 shapeCasts_S256_S1x256) broadcasts_S1x256_S4096x256))
      (broadcast S4096x256 (Scalar.ofBits (F := Ideal) .f32 0x00000000#32)) (ix2 y j)
      = EdgeMlp.hidden1 x2 x3 (fun k => f (ix2 y k)) j := by
  rw [maximumf_apply, addf_apply, first_apply, bias_apply]
  rfl

/-- Second layer of the block at `(y, j)`, from any 4096×256 matrix `g`. -/
theorem layer2_apply (g : FVec Ideal S4096x256 .bf16) (x4 : Vec Ideal S256x128 .f32) (x5 : Vec Ideal S128 .f32)
    (y : Fin 4096) (j : Fin 128) :
    maximumf (addf (matmul dot_S4096x256_S256x128_S4096x128_1_0_0_1_n_n none g (truncf .bf16 x4 bitsLt_bf16_f32) (constant S4096x128 .f32 0x00000000#32))
        (broadcastTo S4096x128 (shapeCast S1x128 x5 shapeCasts_S128_S1x128) broadcasts_S1x128_S4096x128))
      (broadcast S4096x128 (Scalar.ofBits (F := Ideal) .f32 0x00000000#32)) (ix2 y j)
      = EdgeMlp.hidden2 x4 x5 (fun k => g (ix2 y k)) j := by
  rw [maximumf_apply, addf_apply, second_apply, bias_apply]
  rfl

/-- Last layer of the block at `(y, j)`, from any 4096×128 matrix `g`. -/
theorem layer3_apply (g : FVec Ideal S4096x128 .bf16) (x6 : Vec Ideal S128x2 .f32) (x7 : Vec Ideal S2 .f32)
    (y : Fin 4096) (j : Fin 2) :
    addf (matmul dot_S4096x128_S128x2_S4096x2_1_0_0_1_n_n none g (truncf .bf16 x6 bitsLt_bf16_f32) (constant S4096x2 .f32 0x00000000#32))
        (broadcastTo S4096x2 (shapeCast S1x2 x7 shapeCasts_S2_S1x2) broadcasts_S1x2_S4096x2) (ix2 y j)
      = EdgeMlp.logits x6 x7 (fun k => g (ix2 y k)) j := by
  rw [addf_apply, third_apply, bias_apply]
  rfl

/-- THE BLOCK'S VALUE at row `y`, column `j`: the specification's score of row `y` of the two gathered blocks. -/
theorem pay_apply (x0 x1 : Vec Ideal S4096x128 .bf16) (x2 : Vec Ideal S512x256 .f32) (x3 : Vec Ideal S256 .f32)
    (x4 : Vec Ideal S256x128 .f32) (x5 : Vec Ideal S128 .f32) (x6 : Vec Ideal S128x2 .f32) (x7 : Vec Ideal S2 .f32)
    (y : Fin 4096) (j : Fin 2) :
    k0_pay1 (F := Ideal) x0 x1 x2 x3 x4 x5 x6 x7 (ix2 y j)
      = EdgeMlp.edgeScore x2 x3 x4 x5 x6 x7 (EdgeMlp.rowOf x0 y) (EdgeMlp.rowOf x1 y) j := by
  have e0 : shapeCast S4096x128 x0 shapeCasts_S4096x128_S4096x128 = x0 := shapeCast_self x0 _
  have e1 : shapeCast S4096x128 x1 shapeCasts_S4096x128_S4096x128 = x1 := shapeCast_self x1 _
  unfold k0_pay1
  rw [e0, e1]
  refine (layer3_apply _ x6 x7 y j).trans ?_
  unfold EdgeMlp.edgeScore
  refine congrArg (fun g => EdgeMlp.logits x6 x7 g j) (funext fun k => ?_)
  refine (layer2_apply _ x4 x5 y k).trans ?_
  refine congrArg (fun g => EdgeMlp.hidden2 x4 x5 g k) (funext fun k' => ?_)
  refine (layer1_apply _ x2 x3 y k').trans ?_
  exact congrArg (fun g => EdgeMlp.hidden1 x2 x3 g k') (funext fun k'' => feat_apply x0 x1 y k'')

end Cert.KernelIdeal.BlockValue

end
-- ==== Proof.KernelArray.lean ====
/-
  From the kernel's blocks to its whole result array.

  The grid has 123 points; point `t` reads rows `4096 t … 4096 t + 4095` of the two gathered matrices (503808 =
  123 · 4096 rows each), reads every weight array whole, and writes rows `4096 t … 4096 t + 4095` of the 503808 × 2
  result. By the block lemma each written row is the specification's score of the same row of the two gathered
  matrices, so what point `t` writes back is block `t` of ONE whole-array function, `rowScores` of the region's
  operand arrays; the 123 blocks tile the result (row `r` lies in block `r / 4096`), so the result array ends
  holding that function.
-/
import proofs.«427881_j87471303950751_3_alg».proof.Proof.Gen.KernelIdeal.Frame
import proofs.«427881_j87471303950751_3_alg».proof.Proof.KernelRow

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the two gathered matrices and the result move one block of rows per
    point, every weight array stays at its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- The region's operand arrays, at their literal types. -/
abbrev srcRows (c : Dev nD) : S503808x128.Idx → EReal := V m c main_v11
abbrev dstRows (c : Dev nD) : S503808x128.Idx → EReal := V m c main_v18
abbrev w1 (c : Dev nD) : S512x256.Idx → EReal := V m c main_arg3
abbrev c1 (c : Dev nD) : S256.Idx → EReal := V m c main_arg4
abbrev w2 (c : Dev nD) : S256x128.Idx → EReal := V m c main_arg5
abbrev c2 (c : Dev nD) : S128.Idx → EReal := V m c main_arg6
abbrev w3 (c : Dev nD) : S128x2.Idx → EReal := V m c main_arg7
abbrev c3 (c : Dev nD) : S2.Idx → EReal := V m c main_arg8

/-- The whole-array function the result ends holding. -/
abbrev G (c : Dev nD) : S503808x2.Idx → EReal :=
  EdgeMlp.rowScores (w1 m c) (c1 m c) (w2 m c) (c2 m c) (w3 m c) (c3 m c) (srcRows m c) (dstRows m c)

/-- A grid point is below 123. -/
theorem point_lt (t : Fin cfg0.N) : t.val < 123 := lt_of_lt_of_eq t.isLt N_0

/-! ## The blocks the body reads, as parts of the operand arrays -/

/-- Row `p` of the source block at point `t` is row `4096 t + p` of the gathered source matrix. -/
theorem blk_src (c : Dev nD) (t : Fin cfg0.N) (p : Fin 4096) (k : Fin 128) :
    (iblk m c 0 t : S4096x128.Idx → EReal) (ix2 p k)
      = srcRows m c (ix2 ⟨t.val * 4096 + p.val, by have := point_lt t; omega⟩ k) := by
  obtain ⟨e, e', -⟩ := idx_facts t
  show V m c main_v11 (((cfg0.win 0).blk t).view.emb (ix2 p k)) = V m c main_v11 _
  refine congrArg _ (funext fun a => Fin.ext ?_)
  match a with
  | ⟨0, _⟩ => show win0_0.index t (0 : Fin 2) * 4096 + 1 * p.val = t.val * 4096 + p.val; omega
  | ⟨1, _⟩ => show win0_0.index t (1 : Fin 2) * 128 + 1 * k.val = k.val; omega

/-- Row `p` of the destination block at point `t` is row `4096 t + p` of the gathered destination matrix. -/
theorem blk_dst (c : Dev nD) (t : Fin cfg0.N) (p : Fin 4096) (k : Fin 128) :
    (iblk m c 1 t : S4096x128.Idx → EReal) (ix2 p k)
      = dstRows m c (ix2 ⟨t.val * 4096 + p.val, by have := point_lt t; omega⟩ k) := by
  obtain ⟨-, -, e, e', -⟩ := idx_facts t
  show V m c main_v18 (((cfg0.win 1).blk t).view.emb (ix2 p k)) = V m c main_v18 _
  refine congrArg _ (funext fun a => Fin.ext ?_)
  match a with
  | ⟨0, _⟩ => show win0_1.index t (0 : Fin 2) * 4096 + 1 * p.val = t.val * 4096 + p.val; omega
  | ⟨1, _⟩ => show win0_1.index t (1 : Fin 2) * 128 + 1 * k.val = k.val; omega

/-- Each weight window's block is its whole array, at every point. -/
theorem blk_w1 (c : Dev nD) (t : Fin cfg0.N) : (iblk m c 2 t : S512x256.Idx → EReal) = w1 m c := by
  obtain ⟨-, -, -, -, e, e', -⟩ := idx_facts t
  funext j
  show V m c main_arg3 (((cfg0.win 2).blk t).view.emb j) = V m c main_arg3 j
  refine congrArg _ (funext fun a => Fin.ext ?_)
  match a with
  | ⟨0, _⟩ => show win0_2.index t (0 : Fin 2) * 512 + 1 * (j 0).val = (j 0).val; omega
  | ⟨1, _⟩ => show win0_2.index t (1 : Fin 2) * 256 + 1 * (j 1).val = (j 1).val; omega
theorem blk_c1 (c : Dev nD) (t : Fin cfg0.N) : (iblk m c 3 t : S256.Idx → EReal) = c1 m c := by
  obtain ⟨-, -, -, -, -, -, e, -⟩ := idx_facts t
  funext j
  show V m c main_arg4 (((cfg0.win 3).blk t).view.emb j) = V m c main_arg4 j
  refine congrArg _ (funext fun a => Fin.ext ?_)
  match a with
  | ⟨0, _⟩ => show win0_3.index t (0 : Fin 1) * 256 + 1 * (j 0).val = (j 0).val; omega
theorem blk_w2 (c : Dev nD) (t : Fin cfg0.N) : (iblk m c 4 t : S256x128.Idx → EReal) = w2 m c := by
  obtain ⟨-, -, -, -, -, -, -, e, e', -⟩ := idx_facts t
  funext j
  show V m c main_arg5 (((cfg0.win 4).blk t).view.emb j) = V m c main_arg5 j
  refine congrArg _ (funext fun a => Fin.ext ?_)
  match a with
  | ⟨0, _⟩ => show win0_4.index t (0 : Fin 2) * 256 + 1 * (j 0).val = (j 0).val; omega
  | ⟨1, _⟩ => show win0_4.index t (1 : Fin 2) * 128 + 1 * (j 1).val = (j 1).val; omega
theorem blk_c2 (c : Dev nD) (t : Fin cfg0.N) : (iblk m c 5 t : S128.Idx → EReal) = c2 m c := by
  obtain ⟨-, -, -, -, -, -, -, -, -, e, -⟩ := idx_facts t
  funext j
  show V m c main_arg6 (((cfg0.win 5).blk t).view.emb j) = V m c main_arg6 j
  refine congrArg _ (funext fun a => Fin.ext ?_)
  match a with
  | ⟨0, _⟩ => show win0_5.index t (0 : Fin 1) * 128 + 1 * (j 0).val = (j 0).val; omega
theorem blk_w3 (c : Dev nD) (t : Fin cfg0.N) : (iblk m c 6 t : S128x2.Idx → EReal) = w3 m c := by
  obtain ⟨-, -, -, -, -, -, -, -, -, -, e, e', -⟩ := idx_facts t
  funext j
  show V m c main_arg7 (((cfg0.win 6).blk t).view.emb j) = V m c main_arg7 j
  refine congrArg _ (funext fun a => Fin.ext ?_)
  match a with
  | ⟨0, _⟩ => show win0_6.index t (0 : Fin 2) * 128 + 1 * (j 0).val = (j 0).val; omega
  | ⟨1, _⟩ => show win0_6.index t (1 : Fin 2) * 2 + 1 * (j 1).val = (j 1).val; omega
theorem blk_c3 (c : Dev nD) (t : Fin cfg0.N) : (iblk m c 7 t : S2.Idx → EReal) = c3 m c := by
  obtain ⟨-, -, -, -, -, -, -, -, -, -, -, -, e, -⟩ := idx_facts t
  funext j
  show V m c main_arg8 (((cfg0.win 7).blk t).view.emb j) = V m c main_arg8 j
  refine congrArg _ (funext fun a => Fin.ext ?_)
  match a with
  | ⟨0, _⟩ => show win0_7.index t (0 : Fin 1) * 2 + 1 * (j 0).val = (j 0).val; omega

/-- Where entry `(p, q)` of the result block at point `t` lies in the result array: row `4096 t + p`, column `q`. -/
theorem blk_out (t : Fin cfg0.N) (p : Fin 4096) (q : Fin 2) :
    (((cfg0.win 8).blk t).view.emb (ix2 p q) : S503808x2.Idx)
      = ix2 ⟨t.val * 4096 + p.val, by have := point_lt t; omega⟩ q := by
  obtain ⟨-, -, -, -, -, -, -, -, -, -, -, -, -, e, e'⟩ := idx_facts t
  refine funext fun a => Fin.ext ?_
  match a with
  | ⟨0, _⟩ => show win0_8.index t (0 : Fin 2) * 4096 + 1 * p.val = t.val * 4096 + p.val; omega
  | ⟨1, _⟩ => show win0_8.index t (1 : Fin 2) * 2 + 1 * q.val = q.val; omega

/-- WHAT POINT `t` WRITES BACK is block `t` of `G`. -/
theorem flushed_eq (c : Dev nD) (t : Fin cfg0.N) :
    (dats m 0 c).flushed 8 t = ((cfg0.win 8).blk t).view.read (Elt Ideal) (G m c) := by
  show (cfg0.win 8).cut (grid0.coords t) ((dats m 0 c).after 8 t) = _
  rw [after0_8]
  unfold out0_8
  rw [View.canon_unit_zero hz2]
  simp only [View.ld_unit_zero (S := S4096x128) hz2, View.ld_unit_zero (S := S512x256) hz2, View.ld_unit_zero (S := S256) hz1,
    View.ld_unit_zero (S := S256x128) hz2, View.ld_unit_zero (S := S128) hz1, View.ld_unit_zero (S := S128x2) hz2,
    View.ld_unit_zero (S := S2) hz1]
  funext y
  obtain ⟨p, q, rfl⟩ : ∃ (p : Fin 4096) (q : Fin 2), y = ix2 p q := ⟨y 0, y 1, eq_ix2 y⟩
  show k0_pay1 (F := Ideal) (iblk m c 0 t) (iblk m c 1 t) (iblk m c 2 t) (iblk m c 3 t) (iblk m c 4 t) (iblk m c 5 t) (iblk m c 6 t) (iblk m c 7 t) (ix2 p q)
    = G m c (((cfg0.win 8).blk t).view.emb (ix2 p q))
  refine (BlockValue.pay_apply (iblk m c 0 t) (iblk m c 1 t) (iblk m c 2 t) (iblk m c 3 t) (iblk m c 4 t) (iblk m c 5 t) (iblk m c 6 t) (iblk m c 7 t) p q).trans ?_
  rw [blk_out t p q, blk_w1 m c t, blk_c1 m c t, blk_w2 m c t, blk_c2 m c t, blk_w3 m c t, blk_c3 m c t]
  have hs : EdgeMlp.rowOf (iblk m c 0 t : S4096x128.Idx → EReal) p
      = EdgeMlp.rowOf (srcRows m c) ⟨t.val * 4096 + p.val, by have := point_lt t; omega⟩ := funext fun k => blk_src m c t p k
  have hd : EdgeMlp.rowOf (iblk m c 1 t : S4096x128.Idx → EReal) p
      = EdgeMlp.rowOf (dstRows m c) ⟨t.val * 4096 + p.val, by have := point_lt t; omega⟩ := funext fun k => blk_dst m c t p k
  rw [hs, hd]
  rfl

/-! ## The blocks tile the result -/

/-- An index of the result array is in point `t`'s block iff each coordinate is in the block's range on its axis. -/
theorem mem_blk (t : Fin cfg0.N) (i : S503808x2.Idx) :
    i ∈ ((cfg0.win 8).blk t).view.set ↔ ∀ a : Fin 2, win0_8.index t a * S4096x2.size a ≤ (i a).val ∧ (i a).val < win0_8.index t a * S4096x2.size a + S4096x2.size a := by
  show i ∈ ((View.whole main_v19).slice (win0_8.rect t)).set ↔ _
  rw [View.set_slice_whole, Rect.mem_set_unit]
  exact Iff.rfl

/-- Row `r` of the result lies in the block of point `r / 4096`, which is written back. -/
theorem cover (i : S503808x2.Idx) :
    ∃ t : Fin cfg0.N, (cfg0.win 8).flush t = true ∧ i ∈ ((cfg0.win 8).blk t).view.set := by
  have hi0 : (i 0).val < 503808 := (i 0).isLt
  have hi1 : (i 1).val < 2 := (i 1).isLt
  refine ⟨⟨(i 0).val / 4096, lt_of_lt_of_eq (by omega : (i 0).val / 4096 < 123) N_0.symm⟩, flush0_8 _, ?_⟩
  rw [mem_blk]
  obtain ⟨-, -, -, -, -, -, -, -, -, -, -, -, -, e, e'⟩ := idx_facts ⟨(i 0).val / 4096, lt_of_lt_of_eq (by omega : (i 0).val / 4096 < 123) N_0.symm⟩
  intro a
  match a with
  | ⟨0, _⟩ =>
    show win0_8.index _ (0 : Fin 2) * 4096 ≤ (i 0).val ∧ (i 0).val < win0_8.index _ (0 : Fin 2) * 4096 + 4096
    rw [e]
    show (i 0).val / 4096 * 4096 ≤ (i 0).val ∧ (i 0).val < (i 0).val / 4096 * 4096 + 4096
    omega
  | ⟨1, _⟩ =>
    show win0_8.index _ (1 : Fin 2) * 2 ≤ (i 1).val ∧ (i 1).val < win0_8.index _ (1 : Fin 2) * 2 + 2
    rw [e']
    omega

/-- THE RESULT ARRAY after the region: `G` of the region's operand arrays. -/
theorem final (c : Dev nD) : (dats m 0 c).arrAt 8 cfg0.N = G m c :=
  (dats m 0 c).arrAt_eq_of_cover 8 (G m c) (fun t _ => flushed_eq m c t) cover

end Cert.KernelIdeal.ArrayValue

end
-- ==== Proof.KernelGather.lean ====
/-
  What the kernel's region finds in its two gathered matrices.

  Before the region the program clamps each index word into [0, 49999], appends 3808 zero words (503808 rows in
  all, a whole number of blocks), adds the table's height to a negative word (there is none left), and gathers rows
  of the node table, narrowed to bf16, which is the identity on the extended reals. For an edge `e < 500000`
  whose index word lies in [0, 50000) every one of these steps leaves the word as it is, so row `e` of the gathered
  matrix is the row of the table the specification's `nodeOf` names.
-/
import proofs.«427881_j87471303950751_3_alg».proof.Proof.Gen.KernelIdeal.Frame
import proofs.«427881_j87471303950751_3_alg».proof.Proof.EdgeMlp
import proofs.«427881_j87471303950751_3_alg».proof.Proof.LibGatherRows
import Idealize.ShloMosaic.Lib.StableHlo.Run
import Idealize.ShloMosaic.Lib.KernelVsHost
import Idealize.ShloMosaic.Lib.Pipeline.Value
import Idealize.ShloMosaic.Lib.ValueIdx

noncomputable section

namespace Cert.KernelIdeal.Gathered

open Cert.KernelIdeal Cert.KernelIdeal.Gen Idealize.ShloMosaic Idealize.ShloMosaic.TcCoe Idealize.ShloMosaic.ValueIdx
open Idealize.SL.Sem Idealize.ShloMosaic.StableHlo

/-! ## Words -/

/-- A word that is not negative is not below zero in the signed order. -/
theorem slt_zero_false {x : BitVec 32} (h : 0 ≤ x.toInt) : x.slt 0#32 = false := by
  unfold BitVec.slt
  simp only [BitVec.toInt_zero, decide_eq_false_iff_not, not_lt]
  exact h

/-- A word below 50000 is not above 49999 in the signed order. -/
theorem last_slt_false {x : BitVec 32} (h : x.toInt < 50000) : (49999#32 : BitVec 32).slt x = false := by
  unfold BitVec.slt
  have h1 : (49999#32 : BitVec 32).toInt = 49999 := by decide
  simp only [h1, decide_eq_false_iff_not, not_lt]
  omega

/-- Clamping a word of [0, 50000) into [0, 49999] leaves it. -/
theorem clip_eq {x : BitVec 32} (h0 : 0 ≤ x.toInt) (h1 : x.toInt < 50000) :
    IntOp.minsi 49999#32 (IntOp.maxsi 0#32 x) = x := by
  unfold IntOp.minsi IntOp.maxsi
  rw [slt_zero_false h0]
  simp only [Bool.false_eq_true, if_false]
  rw [last_slt_false h1]
  simp only [Bool.false_eq_true, if_false]

/-- The signed comparison word of a non-negative word with zero is 0. -/
theorem cmpi_slt_zero {x : BitVec 32} (h : 0 ≤ x.toInt) : IntOp.cmpi .slt x 0#32 = 0#1 := by
  unfold IntOp.cmpi
  simp only [slt_zero_false h]
  rfl

/-! ## The index column the gathers read -/

/-- An index array clamped into [0, 49999] and padded with 3808 zeros behind. -/
def paddedIdx (x : IVec S500000 32) : IVec S503808 32 :=
  pad S503808 ![0] ![3808] ![0]
    (minsi (broadcastInDim S500000 ![] bcast_S_S500000 (constantI S_ 32 49999#32))
      (maxsi (broadcastInDim S500000 ![] bcast_S_S500000 (constantI S_ 32 0#32)) x))
    (constantI S_ 32 0#32) pads_S500000_S503808_038080 h_S_

/-- The column of start indices: the padded array with the table's height added to a negative word. -/
def startIdx (x : IVec S500000 32) : IVec S503808x1 32 :=
  broadcastInDim S503808x1 ![0] bcast_S503808_S503808x1_0
    (select (cmpi .slt (paddedIdx x) (broadcastInDim S503808 ![] bcast_S_S503808 (constantI S_ 32 0#32)))
      (addi (paddedIdx x) (broadcastInDim S503808 ![] bcast_S_S503808 (constantI S_ 32 50000#32)))
      (paddedIdx x))

/-- The padded array at an edge `e < 500000` whose word is in range: the word. -/
theorem paddedIdx_apply (x : IVec S500000 32) (e : Fin 500000) (h0 : 0 ≤ (x (ix1 e)).toInt) (h1 : (x (ix1 e)).toInt < 50000) :
    paddedIdx x (ix1 ⟨e.val, by have := e.isLt; omega⟩) = x (ix1 e) := by
  unfold paddedIdx
  rw [pad_apply_of_inside (![0] : Fin 1 → Nat) ![3808] ![0] _ _ pads_S500000_S503808_038080 h_S_ _ (ix1 e)
    (fun a => by match a with | ⟨0, _⟩ => show e.val = 0 + e.val * (0 + 1); omega)]
  show IntOp.minsi 49999#32 (IntOp.maxsi 0#32 (x (ix1 e))) = x (ix1 e)
  exact clip_eq h0 h1

/-- The start index of edge `e < 500000` whose word is in range: the word. -/
theorem startIdx_apply (x : IVec S500000 32) (e : Fin 500000) (h0 : 0 ≤ (x (ix1 e)).toInt) (h1 : (x (ix1 e)).toInt < 50000) :
    startIdx x (ix2 ⟨e.val, by have := e.isLt; omega⟩ ⟨0, Nat.one_pos⟩) = x (ix1 e) := by
  unfold startIdx
  rw [broadcastInDim_apply _ bcast_S503808_S503808x1_0 _ _ (ix1 ⟨e.val, by have := e.isLt; omega⟩)
    (fun a => by match a with | ⟨0, _⟩ => show e.val = if (503808 : Nat) = 1 then 0 else e.val; rw [if_neg (by decide)])]
  show Scalar.select (IntOp.cmpi .slt (paddedIdx x (ix1 ⟨e.val, _⟩)) 0#32) _ (paddedIdx x (ix1 ⟨e.val, _⟩)) = _
  rw [paddedIdx_apply x e h0 h1, cmpi_slt_zero h0, select_zero]

/-- Row `e` of a gather of the (narrowed) table at that column: the table's row `nodeOf x e`. -/
theorem gathered_row (node : (⟨S50000x128, .f32⟩ : BufTy).Contents (Elt Ideal)) (x : IVec S500000 32) (e : Fin 500000)
    (h0 : 0 ≤ (x (ix1 e)).toInt) (h1 : (x (ix1 e)).toInt < 50000) (k : Fin 128) :
    Host.gather gather_S50000x128_S503808x1_S503808x128_1_0_n_n_0_1_1128
        (truncf (F := Ideal) .bf16 node bitsLt_bf16_f32) (startIdx x) (ix2 ⟨e.val, by have := e.isLt; omega⟩ k)
      = EdgeMlp.rowOf node (EdgeMlp.nodeOf x e) k := by
  rw [gather_rows_apply (by decide) _ rfl rfl rfl rfl rfl rfl rfl]
  exact congrArg (fun r => node (ix2 r k))
    (Fin.ext (congrArg (fun w : BitVec 32 => min w.toInt.toNat 49999) (startIdx_apply x e h0 h1)))

/-! ## The two matrices as the region finds them -/

variable (m : (ℓ : Loc nD τ sig) → Buf (Elt Ideal) ℓ)

/-- The gathered source matrix is the gather of the narrowed table at the source column. -/
theorem src_eq (c : Dev nD) :
    V m c main_v11 = Host.gather gather_S50000x128_S503808x1_S503808x128_1_0_n_n_0_1_1128
      (truncf (F := Ideal) .bf16 (m ((c : Thread nD τ).loc main_arg0)) bitsLt_bf16_f32)
      (startIdx (m ((c : Thread nD τ).loc main_arg1))) := by
  show StableHlo.after (List.flatten [hostOps0, hostOps0_1, hostOps0_2, hostOps0_3, hostOps0_4, hostOps0_5, hostOps0_6, hostOps0_7, hostOps0_8]) (fun b => m (c, b)) (Proc.devRef .tc main_v11) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

/-- The gathered destination matrix is the gather of the narrowed table at the destination column. -/
theorem dst_eq (c : Dev nD) :
    V m c main_v18 = Host.gather gather_S50000x128_S503808x1_S503808x128_1_0_n_n_0_1_1128
      (truncf (F := Ideal) .bf16 (m ((c : Thread nD τ).loc main_arg0)) bitsLt_bf16_f32)
      (startIdx (m ((c : Thread nD τ).loc main_arg2))) := by
  show StableHlo.after (List.flatten [hostOps0, hostOps0_1, hostOps0_2, hostOps0_3, hostOps0_4, hostOps0_5, hostOps0_6, hostOps0_7, hostOps0_8]) (fun b => m (c, b)) (Proc.devRef .tc main_v18) = _
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

end Cert.KernelIdeal.Gathered

end
-- ==== Proof.KernelRun.lean ====
/-
  The kernel's run, read as a value.

  After the region the program keeps the first 500000 rows of the 503808 × 2 result. Row `e` of what is kept is
  row `e` of the region's result, which is the specification's score of row `e` of the two gathered matrices,
  which — the index words being in range — are the rows of the node table the edge's two index words name:
  the specification's `scores` of the argument arrays.
-/
import proofs.«427881_j87471303950751_3_alg».proof.Proof.KernelArray
import proofs.«427881_j87471303950751_3_alg».proof.Proof.KernelGather
import Idealize.ShloMosaic.Lib.ValueLayout

noncomputable section

namespace Cert.KernelIdeal.RunValue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-- What the program returns: the first 500000 rows of the region's result. -/
theorem tail_eq (c : Dev nD) :
    Pipeline.afterTail₀ cfgs (dats m) 0 (V0 m) [hostOps1] c main_v20
      = extractStridedSlice S500000x2 ![0, 0] (ArrayValue.G m c) slices_S503808x2_S500000x2_0_0 := by
  unfold Pipeline.afterTail₀
  show StableHlo.after hostOps1 _ (Proc.devRef .tc main_v20) = _
  after_results
  refine congrArg (fun X : S503808x2.Idx → EReal => extractStridedSlice S500000x2 ![0, 0] X slices_S503808x2_S500000x2_0_0) ?_
  exact (Pipeline.withArrays_arr spec0 launch0.win.arr_inj c (V0 m c) (fun w => (dats m 0 c).arrAt w (cfgs 0).N) 8).trans
    (ArrayValue.final m c)

/-- The kept rows are the specification's scores, when both index arrays lie in [0, 50000). -/
theorem kept_eq (c : Dev nD)
    (hs : ∀ e : Fin 500000, 0 ≤ (m ((c : Thread nD τ).loc main_arg1) (ix1 e)).toInt ∧ (m ((c : Thread nD τ).loc main_arg1) (ix1 e)).toInt < 50000)
    (hd : ∀ e : Fin 500000, 0 ≤ (m ((c : Thread nD τ).loc main_arg2) (ix1 e)).toInt ∧ (m ((c : Thread nD τ).loc main_arg2) (ix1 e)).toInt < 50000) :
    extractStridedSlice S500000x2 ![0, 0] (ArrayValue.G m c) slices_S503808x2_S500000x2_0_0
      = EdgeMlp.scores (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  funext i
  obtain ⟨e, j, rfl⟩ : ∃ (e : Fin 500000) (j : Fin 2), i = ix2 e j := ⟨i 0, i 1, eq_ix2 i⟩
  rw [slice2_axis0_apply 0 (ArrayValue.G m c) slices_S503808x2_S500000x2_0_0 e j ⟨e.val, by have := e.isLt; omega⟩ (Nat.zero_add _).symm]
  have h3 : ArrayValue.w1 m c = m ((c : Thread nD τ).loc main_arg3) := V_main_arg3 m c
  have h4 : ArrayValue.c1 m c = m ((c : Thread nD τ).loc main_arg4) := V_main_arg4 m c
  have h5 : ArrayValue.w2 m c = m ((c : Thread nD τ).loc main_arg5) := V_main_arg5 m c
  have h6 : ArrayValue.c2 m c = m ((c : Thread nD τ).loc main_arg6) := V_main_arg6 m c
  have h7 : ArrayValue.w3 m c = m ((c : Thread nD τ).loc main_arg7) := V_main_arg7 m c
  have h8 : ArrayValue.c3 m c = m ((c : Thread nD τ).loc main_arg8) := V_main_arg8 m c
  have hsrc : EdgeMlp.rowOf (ArrayValue.srcRows m c) ⟨e.val, by have := e.isLt; omega⟩
      = EdgeMlp.rowOf (m ((c : Thread nD τ).loc main_arg0)) (EdgeMlp.nodeOf (m ((c : Thread nD τ).loc main_arg1)) e) := by
    funext k
    show (V m c main_v11 : S503808x128.Idx → EReal) (ix2 ⟨e.val, _⟩ k) = _
    rw [Gathered.src_eq m c]
    exact Gathered.gathered_row _ _ e (hs e).1 (hs e).2 k
  have hdst : EdgeMlp.rowOf (ArrayValue.dstRows m c) ⟨e.val, by have := e.isLt; omega⟩
      = EdgeMlp.rowOf (m ((c : Thread nD τ).loc main_arg0)) (EdgeMlp.nodeOf (m ((c : Thread nD τ).loc main_arg2)) e) := by
    funext k
    show (V m c main_v18 : S503808x128.Idx → EReal) (ix2 ⟨e.val, _⟩ k) = _
    rw [Gathered.dst_eq m c]
    exact Gathered.gathered_row _ _ e (hd e).1 (hd e).2 k
  show EdgeMlp.edgeScore (ArrayValue.w1 m c) (ArrayValue.c1 m c) (ArrayValue.w2 m c) (ArrayValue.c2 m c) (ArrayValue.w3 m c) (ArrayValue.c3 m c)
      (EdgeMlp.rowOf (ArrayValue.srcRows m c) ⟨e.val, _⟩) (EdgeMlp.rowOf (ArrayValue.dstRows m c) ⟨e.val, _⟩) j = _
  rw [h3, h4, h5, h6, h7, h8, hsrc, hdst]
  rfl

/-- THE RUN: every weakly fair execution of the kernel program terminates with its result at the kept rows of the
    region's result array, and with the argument arrays unchanged. -/
theorem run : θ_run defs (onTc (τ := τ) (main (F := Ideal))) ⟨m, fun _ => 0, ρ⟩ (fun r => ∀ c : Dev nD,
      r.2.mem ((c.tc : Thread nD τ).loc main_v20)
        = extractStridedSlice S500000x2 ![0, 0] (ArrayValue.G m c) slices_S503808x2_S500000x2_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v20 (Pipeline.mem_restRefs_of main_v20 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c)))⟩)
    (run_main m ρ)

end Cert.KernelIdeal.RunValue

end
-- ==== Proof.lean ====
/-
  The certificate: a Pallas kernel that scores the 500000 edges of a graph in blocks of 4096 computes, on the
  extended reals, what its jnp reference computes.

  Both programs take a 50000 × 128 node table, two arrays of 500000 node indices and the weights of a three-layer
  perceptron; for edge `e` with endpoint rows `a`, `b` both return `(relu (relu ([a, b, |a - b|, a * b] W1 + b1) W2 + b2)) W3 + b3`
  (the specification `EdgeMlp.scores`). The reference gathers with the index word as it is (adding the table's
  height to a negative word); the kernel clamps the word first, pads the index arrays to a whole number of
  blocks, gathers, runs the perceptron block by block and keeps the first 500000 rows. The two agree exactly on
  index words in [0, 50000), which the precondition states for both arrays; there every sum is spelled the same
  on both sides, so no finiteness of the float inputs is used. The kernel's idealization rewrote nothing
  (the ledger is empty), so `preserves` holds trivially; the three frames are the generated runs.
-/
import proofs.«427881_j87471303950751_3_alg».proof.Defs
import proofs.«427881_j87471303950751_3_alg».proof.Proof.Gen.Kernel
import proofs.«427881_j87471303950751_3_alg».proof.Proof.Gen.Kernel.Skeleton
import proofs.«427881_j87471303950751_3_alg».proof.Proof.Gen.Kernel.Launch
import proofs.«427881_j87471303950751_3_alg».proof.Proof.Gen.Kernel.Points
import proofs.«427881_j87471303950751_3_alg».proof.Proof.Gen.Kernel.Frame
import proofs.«427881_j87471303950751_3_alg».proof.Proof.Gen.KernelIdeal
import proofs.«427881_j87471303950751_3_alg».proof.Proof.Gen.KernelIdeal.Skeleton
import proofs.«427881_j87471303950751_3_alg».proof.Proof.Gen.KernelIdeal.Launch
import proofs.«427881_j87471303950751_3_alg».proof.Proof.Gen.KernelIdeal.Points
import proofs.«427881_j87471303950751_3_alg».proof.Proof.Gen.KernelIdeal.Frame
import proofs.«427881_j87471303950751_3_alg».proof.Proof.Gen.ReferenceIdeal
import proofs.«427881_j87471303950751_3_alg».proof.Proof.Gen.Pre_finite_inputs
import proofs.«427881_j87471303950751_3_alg».proof.Proof.Gen.ReferenceIdeal.Run
import proofs.«427881_j87471303950751_3_alg».proof.Proof.Gen.ReferenceIdeal.Read
import proofs.«427881_j87471303950751_3_alg».proof.Proof.IndexRange
import proofs.«427881_j87471303950751_3_alg».proof.Proof.RefScores
import proofs.«427881_j87471303950751_3_alg».proof.Proof.KernelRun
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization applied no rule, so there is nothing to preserve. -/
theorem preserves : Cert.preserves_Kernel_KernelIdeal := trivial

/-- From memories that agree on the arguments, with both index arrays in [0, 50000), the two idealized programs end
    with the same result: the specification's scores of the arguments. -/
theorem algebraic : Cert.algebraic_KernelIdeal_ReferenceIdeal := by
  intro m ρ m' ρ' hpre hagree
  have hr := fun c : Dev Cert.KernelIdeal.nD => Cert.IndexRange.of_pre _ _ _ _ _ _ _ _ _ (hpre c)
  refine ⟨fun c => EdgeMlp.scores
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.RunValue.kept_eq m c (hr c).1 (hr c).2), (h c).2⟩)
      (Cert.KernelIdeal.RunValue.run m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7, a8⟩ := hagree c
    rw [(h c).1, Cert.ReferenceIdeal.Read.val_main_v31_eq,
      Cert.RefScores.val_eq _ _ _ _ _ _ _ _ _ (by rw [a1]; exact (hr c).1) (by rw [a2]; exact (hr c).2),
      a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
